-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x32 : Shape := ⟨2, ![262144, 32]⟩
abbrev S27x32x32 : Shape := ⟨3, ![27, 32, 32]⟩
abbrev S1x32 : Shape := ⟨2, ![1, 32]⟩
abbrev S27x131072 : Shape := ⟨2, ![27, 131072]⟩
abbrev S_ : Shape := ⟨0, ![]⟩

class Facts : Prop where
  bcast_S_S262144x32 : S_.BroadcastsInDim S262144x32 (![] : Fin 0 → Fin S262144x32.rank)
  reducesTo_S262144x32_S_d0_1 : S262144x32.ReducesTo [0, 1] S_
  h_S_ : 0 < S_.numel
  bcast_S_S27x32x32 : S_.BroadcastsInDim S27x32x32 (![] : Fin 0 → Fin S27x32x32.rank)
  reducesTo_S27x32x32_S_d0_1_2 : S27x32x32.ReducesTo [0, 1, 2] S_
  bcast_S_S1x32 : S_.BroadcastsInDim S1x32 (![] : Fin 0 → Fin S1x32.rank)
  reducesTo_S1x32_S_d0_1 : S1x32.ReducesTo [0, 1] S_

variable [Facts]

def fn {F : FTy → Type} [FloatOps F] (main_arg0 : FVec F S262144x32 .f32) (main_arg1 : FVec F S27x32x32 .f32) (main_arg2 : FVec F S1x32 .f32) (main_arg3 : IVec S27x131072 32) (main_arg4 : IVec S27x131072 32) : IVec S_ 1 :=
  let main_v0 : FVec F S262144x32 .f32 := Host.absf main_arg0
  let main_cst : FVec F S_ .f32 := constant S_ .f32 0x7F800000#32
  let main_v1 : FVec F S262144x32 .f32 := broadcastInDim S262144x32 ![] bcast_S_S262144x32 main_cst
  let main_v2 : IVec S262144x32 1 := cmpf .olt main_v0 main_v1
  let main_c : IVec S_ 1 := constantI S_ 1 1#1
  let main_v3 : IVec S_ 1 := (fun x v => Host.reduce IntOp.andi x v reducesTo_S262144x32_S_d0_1 h_S_) main_v2 main_c
  let main_v4 : FVec F S27x32x32 .f32 := Host.absf main_arg1
  let main_cst_0 : FVec F S_ .f32 := constant S_ .f32 0x7F800000#32
  let main_v5 : FVec F S27x32x32 .f32 := broadcastInDim S27x32x32 ![] bcast_S_S27x32x32 main_cst_0
  let main_v6 : IVec S27x32x32 1 := cmpf .olt main_v4 main_v5
  let main_c_1 : IVec S_ 1 := constantI S_ 1 1#1
  let main_v7 : IVec S_ 1 := (fun x v => Host.reduce IntOp.andi x v reducesTo_S27x32x32_S_d0_1_2 h_S_) main_v6 main_c_1
  let main_v8 : IVec S_ 1 := andi main_v3 main_v7
  let main_v9 : FVec F S1x32 .f32 := Host.absf main_arg2
  let main_cst_2 : FVec F S_ .f32 := constant S_ .f32 0x7F800000#32
  let main_v10 : FVec F S1x32 .f32 := broadcastInDim S1x32 ![] bcast_S_S1x32 main_cst_2
  let main_v11 : IVec S1x32 1 := cmpf .olt main_v9 main_v10
  let main_c_3 : IVec S_ 1 := constantI S_ 1 1#1
  let main_v12 : IVec S_ 1 := (fun x v => Host.reduce IntOp.andi x v reducesTo_S1x32_S_d0_1 h_S_) main_v11 main_c_3
  let main_v13 : IVec S_ 1 := andi main_v8 main_v12
  main_v13
-- ==== Kernel.lean ====
abbrev S262144x32 : Shape := ⟨2, ![262144, 32]⟩
abbrev S27x32x32 : Shape := ⟨3, ![27, 32, 32]⟩
abbrev S1x32 : Shape := ⟨2, ![1, 32]⟩
abbrev S27x131072 : Shape := ⟨2, ![27, 131072]⟩
abbrev S_ : Shape := ⟨0, ![]⟩
abbrev S27x131072x1 : Shape := ⟨3, ![27, 131072, 1]⟩
abbrev S27x131072x32 : Shape := ⟨3, ![27, 131072, 32]⟩
abbrev S1x16384x32 : Shape := ⟨3, ![1, 16384, 32]⟩
abbrev S1x32x32 : Shape := ⟨3, ![1, 32, 32]⟩
abbrev S16384x32 : Shape := ⟨2, ![16384, 32]⟩
abbrev S32x32 : Shape := ⟨2, ![32, 32]⟩
abbrev S3538944 : Shape := ⟨1, ![3538944]⟩
abbrev S3538944x32 : Shape := ⟨2, ![3538944, 32]⟩
abbrev S3538944x1 : Shape := ⟨2, ![3538944, 1]⟩

abbrev nBuf : Space → Nat
  | .hbm => 30
  | .vmem => 6
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S1x32, .f32⟩
  | .hbm, ⟨3, _⟩ => ⟨S27x131072, .i32⟩
  | .hbm, ⟨4, _⟩ => ⟨S27x131072, .i32⟩
  | .hbm, ⟨5, _⟩ => ⟨S_, .i32⟩
  | .hbm, ⟨6, _⟩ => ⟨S27x131072, .i32⟩
  | .hbm, ⟨7, _⟩ => ⟨S27x131072, .i1⟩
  | .hbm, ⟨8, _⟩ => ⟨S_, .i32⟩
  | .hbm, ⟨9, _⟩ => ⟨S27x131072, .i32⟩
  | .hbm, ⟨10, _⟩ => ⟨S27x131072, .i32⟩
  | .hbm, ⟨11, _⟩ => ⟨S27x131072, .i32⟩
  | .hbm, ⟨12, _⟩ => ⟨S27x131072x1, .i32⟩
  | .hbm, ⟨13, _⟩ => ⟨S27x131072x32, .f32⟩
  | .hbm, ⟨14, _⟩ => ⟨S27x131072x32, .f32⟩
  | .hbm, ⟨15, _⟩ => ⟨S_, .f32⟩
  | .hbm, ⟨16, _⟩ => ⟨S262144x32, .f32⟩
  | .hbm, ⟨17, _⟩ => ⟨S3538944, .i32⟩
  | .hbm, ⟨18, _⟩ => ⟨S3538944x32, .f32⟩
  | .hbm, ⟨19, _⟩ => ⟨S_, .i32⟩
  | .hbm, ⟨20, _⟩ => ⟨S3538944, .i32⟩
  | .hbm, ⟨21, _⟩ => ⟨S3538944, .i1⟩
  | .hbm, ⟨22, _⟩ => ⟨S_, .i32⟩
  | .hbm, ⟨23, _⟩ => ⟨S3538944, .i32⟩
  | .hbm, ⟨24, _⟩ => ⟨S3538944, .i32⟩
  | .hbm, ⟨25, _⟩ => ⟨S3538944, .i32⟩
  | .hbm, ⟨26, _⟩ => ⟨S3538944x1, .i32⟩
  | .hbm, ⟨27, _⟩ => ⟨S262144x32, .f32⟩
  | .hbm, ⟨28, _⟩ => ⟨S262144x32, .f32⟩
  | .hbm, ⟨29, _⟩ => ⟨S262144x32, .f32⟩
  | .local _ .vmem, ⟨0, _⟩ => ⟨S1x16384x32, .f32⟩
  | .local _ .vmem, ⟨1, _⟩ => ⟨S1x16384x32, .f32⟩
  | .local _ .vmem, ⟨2, _⟩ => ⟨S1x32x32, .f32⟩
  | .local _ .vmem, ⟨3, _⟩ => ⟨S1x32x32, .f32⟩
  | .local _ .vmem, ⟨4, _⟩ => ⟨S1x16384x32, .f32⟩
  | .local _ .vmem, ⟨5, _⟩ => ⟨S1x16384x32, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![27, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16384x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16384x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  inb_S1x16384x32_S1x16384x32_0_0_0 : ∀ a, (![0, 0, 0] : Fin 3 → Nat) a + S1x16384x32.size a ≤ S1x16384x32.size a
  h_S1x16384x32 : 0 < S1x16384x32.numel
  shapeCasts_S1x16384x32_S16384x32 : S1x16384x32.ShapeCasts S16384x32
  bitsLt_bf16_f32 : FTy.bits .bf16 < FTy.bits .f32
  inb_S1x32x32_S1x32x32_0_0_0 : ∀ a, (![0, 0, 0] : Fin 3 → Nat) a + S1x32x32.size a ≤ S1x32x32.size a
  h_S1x32x32 : 0 < S1x32x32.numel
  shapeCasts_S1x32x32_S32x32 : S1x32x32.ShapeCasts S32x32
  shapeCasts_S16384x32_S1x16384x32 : S16384x32.ShapeCasts S1x16384x32
  bcast_S_S262144x32 : S_.BroadcastsInDim S262144x32 (![] : Fin 0 → Fin S262144x32.rank)
  shapeCasts_S27x131072_S3538944 : S27x131072.ShapeCasts S3538944
  shapeCasts_S27x131072x32_S3538944x32 : S27x131072x32.ShapeCasts S3538944x32
  bcast_S_S3538944 : S_.BroadcastsInDim S3538944 (![] : Fin 0 → Fin S3538944.rank)
  bcast_S3538944_S3538944x1_0 : S3538944.BroadcastsInDim S3538944x1 (![0] : Fin 1 → Fin S3538944x1.rank)
  bcast_S1x32_S262144x32_0_1 : S1x32.BroadcastsInDim S262144x32 (![0, 1] : Fin 2 → Fin S262144x32.rank)
  gather_S262144x32_S27x131072x1_S27x131072x32_2_0_n_n_0_2_132_wf : GatherDims.WF S262144x32 S27x131072x1 S27x131072x32 [2] [0] [] [0] [] 2 ![1, 32]
  dot_S16384x32_S32x32_S16384x32_1_0_0_1_n_n_wf : DotDims.WF S16384x32 S32x32 S16384x32 [1] [0] [0] [1] [] []
  scatter_S262144x32_S3538944x1_S3538944x32_1_0_0_1_wf : ScatterDims.WF S262144x32 S3538944x1 S3538944x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16384x32.size a ≤ S27x131072x32.size a
  hwx0_0 : ∀ i : grid0.Coords, EltTy.bits .f32 = 32 ∨ (Rect.block (s := S27x131072x32) S1x16384x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x32.size a ≤ S27x32x32.size a
  hwx0_1 : ∀ i : grid0.Coords, EltTy.bits .f32 = 32 ∨ (Rect.block (s := S27x32x32) S1x32x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16384x32.size a ≤ S27x131072x32.size a
  hwx0_2 : ∀ i : grid0.Coords, EltTy.bits .f32 = 32 ∨ (Rect.block (s := S27x131072x32) S1x16384x32.size (cc0_transform_2 i) (hinb0_2 i)).WholeWords (EltTy.packing .f32)

variable [Facts₀]

def gather_S262144x32_S27x131072x1_S27x131072x32_2_0_n_n_0_2_132 : GatherDims S262144x32 S27x131072x1 S27x131072x32 where
  offsetDims := [2]
  collapsedSliceDims := [0]
  operandBatchingDims := []
  startIndicesBatchingDims := []
  startIndexMap := [0]
  indexVectorDim := 2
  sliceSizes := ![1, 32]
  wf := gather_S262144x32_S27x131072x1_S27x131072x32_2_0_n_n_0_2_132_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

abbrev win0_0 : Pipeline.Window sig grid0 :=
  Pipeline.Window.ofSpec (Memref.whole main_v6) S1x16384x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x16384x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S262144x32 : Shape := ⟨2, ![262144, 32]⟩
abbrev S27x32x32 : Shape := ⟨3, ![27, 32, 32]⟩
abbrev S1x32 : Shape := ⟨2, ![1, 32]⟩
abbrev S27x131072 : Shape := ⟨2, ![27, 131072]⟩
abbrev S_ : Shape := ⟨0, ![]⟩
abbrev S27x131072x1 : Shape := ⟨3, ![27, 131072, 1]⟩
abbrev S27x131072x32 : Shape := ⟨3, ![27, 131072, 32]⟩
abbrev S3538944 : Shape := ⟨1, ![3538944]⟩
abbrev S3538944x32 : Shape := ⟨2, ![3538944, 32]⟩
abbrev S3538944x1 : Shape := ⟨2, ![3538944, 1]⟩

abbrev nBuf : Space → Nat
  | .hbm => 30
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S27x32x32, .f32⟩
  | .hbm, ⟨2, _⟩ => ⟨S1x32, .f32⟩
  | .hbm, ⟨3, _⟩ => ⟨S27x131072, .i32⟩
  | .hbm, ⟨4, _⟩ => ⟨S27x131072, .i32⟩
  | .hbm, ⟨5, _⟩ => ⟨S_, .i32⟩
  | .hbm, ⟨6, _⟩ => ⟨S27x131072, .i32⟩
  | .hbm, ⟨7, _⟩ => ⟨S27x131072, .i1⟩
  | .hbm, ⟨8, _⟩ => ⟨S_, .i32⟩
  | .hbm, ⟨9, _⟩ => ⟨S27x131072, .i32⟩
  | .hbm, ⟨10, _⟩ => ⟨S27x131072, .i32⟩
  | .hbm, ⟨11, _⟩ => ⟨S27x131072, .i32⟩
  | .hbm, ⟨12, _⟩ => ⟨S27x131072x1, .i32⟩
  | .hbm, ⟨13, _⟩ => ⟨S27x131072x32, .f32⟩
  | .hbm, ⟨14, _⟩ => ⟨S27x131072x32, .f32⟩
  | .hbm, ⟨15, _⟩ => ⟨S_, .f32⟩
  | .hbm, ⟨16, _⟩ => ⟨S262144x32, .f32⟩
  | .hbm, ⟨17, _⟩ => ⟨S3538944, .i32⟩
  | .hbm, ⟨18, _⟩ => ⟨S3538944x32, .f32⟩
  | .hbm, ⟨19, _⟩ => ⟨S_, .i32⟩
  | .hbm, ⟨20, _⟩ => ⟨S3538944, .i32⟩
  | .hbm, ⟨21, _⟩ => ⟨S3538944, .i1⟩
  | .hbm, ⟨22, _⟩ => ⟨S_, .i32⟩
  | .hbm, ⟨23, _⟩ => ⟨S3538944, .i32⟩
  | .hbm, ⟨24, _⟩ => ⟨S3538944, .i32⟩
  | .hbm, ⟨25, _⟩ => ⟨S3538944, .i32⟩
  | .hbm, ⟨26, _⟩ => ⟨S3538944x1, .i32⟩
  | .hbm, ⟨27, _⟩ => ⟨S262144x32, .f32⟩
  | .hbm, ⟨28, _⟩ => ⟨S262144x32, .f32⟩
  | .hbm, ⟨29, _⟩ => ⟨S262144x32, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S27x131072 : S_.BroadcastsInDim S27x131072 (![] : Fin 0 → Fin S27x131072.rank)
  bcast_S27x131072_S27x131072x1_0_1 : S27x131072.BroadcastsInDim S27x131072x1 (![0, 1] : Fin 2 → Fin S27x131072x1.rank)
  bcast_S_S262144x32 : S_.BroadcastsInDim S262144x32 (![] : Fin 0 → Fin S262144x32.rank)
  shapeCasts_S27x131072_S3538944 : S27x131072.ShapeCasts S3538944
  shapeCasts_S27x131072x32_S3538944x32 : S27x131072x32.ShapeCasts S3538944x32
  bcast_S_S3538944 : S_.BroadcastsInDim S3538944 (![] : Fin 0 → Fin S3538944.rank)
  bcast_S3538944_S3538944x1_0 : S3538944.BroadcastsInDim S3538944x1 (![0] : Fin 1 → Fin S3538944x1.rank)
  bcast_S1x32_S262144x32_0_1 : S1x32.BroadcastsInDim S262144x32 (![0, 1] : Fin 2 → Fin S262144x32.rank)
  gather_S262144x32_S27x131072x1_S27x131072x32_2_0_n_n_0_2_132_wf : GatherDims.WF S262144x32 S27x131072x1 S27x131072x32 [2] [0] [] [0] [] 2 ![1, 32]
  dot_S27x131072x32_S27x32x32_S27x131072x32_2_1_1_2_0_0_wf : DotDims.WF S27x131072x32 S27x32x32 S27x131072x32 [2] [1] [1] [2] [0] [0]
  scatter_S262144x32_S3538944x1_S3538944x32_1_0_0_1_wf : ScatterDims.WF S262144x32 S3538944x1 S3538944x32 [1] [0] [0] 1

variable [Facts₀]

def gather_S262144x32_S27x131072x1_S27x131072x32_2_0_n_n_0_2_132 : GatherDims S262144x32 S27x131072x1 S27x131072x32 where
  offsetDims := [2]
  collapsedSliceDims := [0]
  operandBatchingDims := []
  startIndicesBatchingDims := []
  startIndexMap := [0]
  indexVectorDim := 2
  sliceSizes := ![1, 32]
  wf := gather_S262144x32_S27x131072x1_S27x131072x32_2_0_n_n_0_2_132_wf
def dot_S27x131072x32_S27x32x32_S27x131072x32_2_1_1_2_0_0 : DotDims S27x131072x32 S27x32x32 S27x131072x32 where
  lhsContracting := [2]
  rhsContracting := [1]
  lhsNonContracting := [1]
  rhsNonContracting := [2]
  lhsBatch := [0]
  rhsBatch := [0]
  wf := dot_S27x131072x32_S27x32x32_S27x131072x32_2_1_1_2_0_0_wf
def scatter_S262144x32_S3538944x1_S3538944x32_1_0_0_1 : ScatterDims S262144x32 S3538944x1 S3538944x32 where
  updateWindowDims := [1]
  insertedWindowDims := [0]
  scatterDimsToOperandDims := [0]
  indexVectorDim := 1
  wf := scatter_S262144x32_S3538944x1_S3538944x32_1_0_0_1_wf

class Facts : Prop extends Facts₀ where

variable [Facts]
-- ==== Proof.OffsetGemm.lean ====
/-
  The per-offset product of a sparse convolution, as one function of the gathered rows and the weights.

  For each kernel offset `a` (27 of them) the gathered features form a 131072 × 32 matrix and the weights a 32 × 32
  matrix; the contribution of offset `a` is their matrix product. Entry `(a, r, o)` of the contribution array is
  `∑ k, g (a, r, k) · w (a, k, o)` over the 32 input channels `k`, a sum of products on the extended reals.
  Both programs compute exactly this array between the same gather and the same scatter-add; nothing here needs the
  inputs to be finite, because no term is moved across a sum or cancelled.
-/
import Idealize.ShloMosaic.PureOps.Ideal
import Idealize.ShloMosaic.Lib.ValueIdx

noncomputable section

namespace Cert.OffsetGemm

open Idealize.ShloMosaic Idealize.ShloMosaic.ValueIdx

/-- The gathered rows, one 131072 × 32 matrix per offset. -/
abbrev SG : Shape := ⟨3, ![27, 131072, 32]⟩
/-- The weights, one 32 × 32 matrix per offset. -/
abbrev SW : Shape := ⟨3, ![27, 32, 32]⟩

/-- Entry `(a, r, o)` of the contribution: row `r` of offset `a`'s gathered matrix against column `o` of its weights. -/
def contrib (g : SG.Idx → EReal) (w : SW.Idx → EReal) : SG.Idx → EReal :=
  fun j => ∑ k : Fin 32, g (ix3 (j 0 : Fin 27) (j 1 : Fin 131072) k) * w (ix3 (j 0 : Fin 27) k (j 2 : Fin 32))

/-- The contribution at an index, over ANY way of naming the two factors' indices whose coordinates are the
    expected ones: offset and row from the output index and channel `k` on the left, offset and output channel
    from the output index and channel `k` on the right. -/
theorem contrib_apply_of (g : SG.Idx → EReal) (w : SW.Idx → EReal) (j : SG.Idx)
    (gi : Fin 32 → SG.Idx) (wi : Fin 32 → SW.Idx)
    (g0 : ∀ k, (gi k 0).val = (j 0).val) (g1 : ∀ k, (gi k 1).val = (j 1).val) (g2 : ∀ k, (gi k 2).val = k.val)
    (w0 : ∀ k, (wi k 0).val = (j 0).val) (w1 : ∀ k, (wi k 1).val = k.val) (w2 : ∀ k, (wi k 2).val = (j 2).val) :
    contrib g w j = ∑ k : Fin 32, g (gi k) * w (wi k) := by
  unfold contrib
  refine Finset.sum_congr rfl fun k _ => ?_
  have eg : (ix3 (j 0 : Fin 27) (j 1 : Fin 131072) k : SG.Idx) = gi k := funext fun a => Fin.ext (by
    match a with
    | ⟨0, _⟩ => exact (g0 k).symm
    | ⟨1, _⟩ => exact (g1 k).symm
    | ⟨2, _⟩ => exact (g2 k).symm)
  have ew : (ix3 (j 0 : Fin 27) k (j 2 : Fin 32) : SW.Idx) = wi k := funext fun a => Fin.ext (by
    match a with
    | ⟨0, _⟩ => exact (w0 k).symm
    | ⟨1, _⟩ => exact (w1 k).symm
    | ⟨2, _⟩ => exact (w2 k).symm)
  rw [eg, ew]

end Cert.OffsetGemm

end
-- ==== Proof.BlockProduct.lean ====
/-
  What the kernel body stores, entry by entry: the matrix product of its two loaded blocks.

  The body loads a 1 × 16384 × 32 block of gathered rows and a 1 × 32 × 32 block of weights, drops the leading unit
  axis of each, narrows both to bf16 (the identity on the extended reals), multiplies them on the matrix unit into a
  zero accumulator, and puts the unit axis back. So entry `(0, r, o)` of what it stores is
  `∑ k, x (0, r, k) · y (0, k, o)` over the 32 channels `k`: the zero accumulator contributes nothing, and the
  contraction's one axis is re-indexed by its coordinate.
-/
import proofs.«180998_j69097433858537_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockProduct

open Cert.KernelIdeal Cert.KernelIdeal.Gen Idealize.ShloMosaic Idealize.ShloMosaic.ValueIdx

/-! ## The matrix unit's operand indices, axis by axis

The product has no batch axis; the left operand's axis 0 is the output's row and its axis 1 the contracted channel,
the right operand's axis 0 the contracted channel and its axis 1 the output's column. -/

theorem lhs_axis0 (i : S16384x32.Idx) (q : dot_S16384x32_S32x32_S16384x32_1_0_0_1_n_n.contr.Idx) :
    (dot_S16384x32_S32x32_S16384x32_1_0_0_1_n_n.lhsIdx i q 0).val = (i 0).val := by
  unfold DotDims.lhsIdx
  rw [dif_neg (show ¬(0 : Fin S16384x32.rank) ∈ dot_S16384x32_S32x32_S16384x32_1_0_0_1_n_n.lhsBatch by decide), dif_pos (show (0 : Fin S16384x32.rank) ∈ dot_S16384x32_S32x32_S16384x32_1_0_0_1_n_n.lhsNonContracting by decide)]
  rfl
theorem lhs_axis1 (i : S16384x32.Idx) (q : dot_S16384x32_S32x32_S16384x32_1_0_0_1_n_n.contr.Idx) :
    (dot_S16384x32_S32x32_S16384x32_1_0_0_1_n_n.lhsIdx i q 1).val = (q ⟨0, by decide⟩).val :=
  dot_S16384x32_S32x32_S16384x32_1_0_0_1_n_n.lhsIdx_val_of_single rfl i q
theorem rhs_axis0 (i : S16384x32.Idx) (q : dot_S16384x32_S32x32_S16384x32_1_0_0_1_n_n.contr.Idx) :
    (dot_S16384x32_S32x32_S16384x32_1_0_0_1_n_n.rhsIdx i q 0).val = (q ⟨0, by decide⟩).val :=
  dot_S16384x32_S32x32_S16384x32_1_0_0_1_n_n.rhsIdx_val_of_single rfl i q
theorem rhs_axis1 (i : S16384x32.Idx) (q : dot_S16384x32_S32x32_S16384x32_1_0_0_1_n_n.contr.Idx) :
    (dot_S16384x32_S32x32_S16384x32_1_0_0_1_n_n.rhsIdx i q 1).val = (i 1).val := by
  unfold DotDims.rhsIdx
  rw [dif_neg (show ¬(1 : Fin S32x32.rank) ∈ dot_S16384x32_S32x32_S16384x32_1_0_0_1_n_n.rhsBatch by decide), dif_pos (show (1 : Fin S32x32.rank) ∈ dot_S16384x32_S32x32_S16384x32_1_0_0_1_n_n.rhsNonContracting by decide)]
  rfl

/-- The 16384 × 32 by 32 × 32 product into a zero accumulator, at entry `(r, o)`: the sum over the 32 channels. -/
theorem product_apply (l : FVec Ideal S16384x32 .bf16) (w : FVec Ideal S32x32 .bf16) (r : Fin 16384) (o : Fin 32) :
    matmul (F := Ideal) dot_S16384x32_S32x32_S16384x32_1_0_0_1_n_n none l w (constant S16384x32 .f32 0x00000000#32) (ix2 r o)
      = ∑ k : Fin 32, l (ix2 r k) * w (ix2 k o) := by
  simp only [matmul]
  rw [Ideal.matmul_constant_zero_apply, ← Equiv.sum_comp (ValueIdx.contrEquiv1 dot_S16384x32_S32x32_S16384x32_1_0_0_1_n_n 32 rfl rfl).symm]
  refine Finset.sum_congr rfl fun k _ => ?_
  have hk := ValueIdx.contrEquiv1_symm_val dot_S16384x32_S32x32_S16384x32_1_0_0_1_n_n 32 rfl rfl k
  have el : dot_S16384x32_S32x32_S16384x32_1_0_0_1_n_n.lhsIdx (ix2 r o) ((ValueIdx.contrEquiv1 dot_S16384x32_S32x32_S16384x32_1_0_0_1_n_n 32 rfl rfl).symm k) = ix2 r k := funext fun a => Fin.ext (by
    match a with
    | ⟨0, _⟩ => exact lhs_axis0 _ _
    | ⟨1, _⟩ => exact (lhs_axis1 _ _).trans hk)
  have er : dot_S16384x32_S32x32_S16384x32_1_0_0_1_n_n.rhsIdx (ix2 r o) ((ValueIdx.contrEquiv1 dot_S16384x32_S32x32_S16384x32_1_0_0_1_n_n 32 rfl rfl).symm k) = ix2 k o := funext fun a => Fin.ext (by
    match a with
    | ⟨0, _⟩ => exact (rhs_axis0 _ _).trans hk
    | ⟨1, _⟩ => exact rhs_axis1 _ _)
  rw [el, er]

/-- THE STORED BLOCK at entry `(0, r, o)`: the sum over the channels of the gathered block's row `r` against the
    weight block's column `o`. -/
theorem stored_apply (x : Vec Ideal S1x16384x32 .f32) (y : Vec Ideal S1x32x32 .f32) (r : Fin 16384) (o : Fin 32) :
    k0_pay1 (F := Ideal) x y (ix3 (0 : Fin 1) r o) = ∑ k : Fin 32, x (ix3 (0 : Fin 1) r k) * y (ix3 (0 : Fin 1) k o) := by
  unfold k0_pay1
  refine (shapeCast_ab_1ab_apply _ _ (0 : Fin 1) r o).trans ?_
  refine (product_apply _ _ r o).trans ?_
  refine Finset.sum_congr rfl fun k _ => ?_
  show shapeCast S16384x32 x shapeCasts_S1x16384x32_S16384x32 (ix2 r k) * shapeCast S32x32 y shapeCasts_S1x32x32_S32x32 (ix2 k o) = _
  rw [shapeCast_1ab_ab_apply, shapeCast_1ab_ab_apply]

end Cert.KernelIdeal.BlockProduct

end
-- ==== Proof.ContribArray.lean ====
/-
  The kernel's output array after the region: the per-offset product of the gathered rows and the weights.

  The grid has 27 × 8 points. Point `(a, b)` reads rows `16384 b … 16384 b + 16383` of offset `a`'s gathered matrix
  and offset `a`'s whole weight matrix, and writes back rows `16384 b … 16384 b + 16383` of offset `a`'s
  contribution. A block's coordinate along an axis is always (block index) × (block size) + (coordinate inside the
  block), so entry `(0, r, o)` of the block written at `(a, b)` is entry `(a, 16384 b + r, o)` of the array, and the
  body's sum over the channels of its two loaded blocks is the array's sum over the channels there. Row `R` of offset
  `a` lies in the block of point `(a, R / 16384)`, so the blocks cover the array and it ends holding the product
  everywhere.
-/
import proofs.«180998_j69097433858537_1_alg».proof.Proof.Gen.KernelIdeal.Frame
import proofs.«180998_j69097433858537_1_alg».proof.Proof.OffsetGemm
import proofs.«180998_j69097433858537_1_alg».proof.Proof.BlockProduct
import Idealize.ShloMosaic.Lib.Pipeline.Value
import Idealize.ShloMosaic.Lib.ValueIdx

set_option maxRecDepth 16384

noncomputable section

namespace Cert.KernelIdeal.ContribArray

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem zero_offsets : (![0, 0, 0] : Fin 3 → Nat) = fun _ => 0 := funext fun a => by fin_cases a <;> rfl

/-- The three index maps over the grid: the gathered rows' block moves with the output's block, the weights' block
    follows the output's offset only, no map moves along the channel axis, and the output's block indices stay in
    27 × 8. -/
theorem index_maps : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (2 : Fin 3) = 0 ∧ win0_2.index t (0 : Fin 3) ≤ 26 ∧ win0_2.index t (1 : Fin 3) ≤ 7 :=
  (by decide +kernel : ∀ t : Fin grid0.N, _)

/-- Every (offset, row block) pair is some grid point's output block. -/
theorem every_block : ∀ (q0 : Fin 27) (q1 : Fin 8), ∃ t : Fin cfg0.N, win0_2.index t = ![q0.val, q1.val, 0] :=
  (by decide +kernel : ∀ (q0 : Fin 27) (q1 : Fin 8), ∃ t : Fin grid0.N, win0_2.index t = ![q0.val, q1.val, 0])

/-- WHAT POINT `t` WRITES BACK is its block of the per-offset product of the arrays the region finds. -/
theorem written_block (c : Dev nD) (t : Fin cfg0.N) :
    (dats m 0 c).flushed 2 t
      = ((cfg0.win 2).blk t).view.read (Elt Ideal) (Cert.OffsetGemm.contrib (V m c main_v6) (V m c main_arg1)) := by
  show (cfg0.win 2).cut (grid0.coords t) ((dats m 0 c).after 2 t) = _
  rw [after0_2]
  unfold out0_2
  rw [View.canon_unit_zero zero_offsets]
  simp only [View.ld_unit_zero (S := S1x16384x32) zero_offsets, View.ld_unit_zero (S := S1x32x32) zero_offsets]
  obtain ⟨e0, e1, e2, e3, e4, e5, e6, -, -⟩ := index_maps t
  funext j
  obtain ⟨u, r, o, rfl⟩ : ∃ (u : Fin 1) (r : Fin 16384) (o : Fin 32), j = ix3 u r o := ⟨j 0, j 1, j 2, eq_ix3 j⟩
  obtain rfl : u = 0 := Subsingleton.elim _ _
  show k0_pay1 (F := Ideal) (iblk m c 0 t) (iblk m c 1 t) (ix3 (0 : Fin 1) r o)
    = Cert.OffsetGemm.contrib (V m c main_v6) (V m c main_arg1) (((cfg0.win 2).blk t).view.emb (ix3 (0 : Fin 1) r o))
  refine (Cert.KernelIdeal.BlockProduct.stored_apply (iblk m c 0 t) (iblk m c 1 t) r o).trans ?_
  refine (Cert.OffsetGemm.contrib_apply_of (V m c main_v6) (V m c main_arg1) (((cfg0.win 2).blk t).view.emb (ix3 (0 : Fin 1) r o))
    (fun k => ((cfg0.win 0).blk t).view.emb (ix3 (0 : Fin 1) r k)) (fun k => ((cfg0.win 1).blk t).view.emb (ix3 (0 : Fin 1) k o))
    ?_ ?_ ?_ ?_ ?_ ?_).symm
  · intro k
    show win0_0.index t (0 : Fin 3) * 1 + 1 * (0 : Fin 1).val = win0_2.index t (0 : Fin 3) * 1 + 1 * (0 : Fin 1).val
    rw [e0]
  · intro k
    show win0_0.index t (1 : Fin 3) * 16384 + 1 * r.val = win0_2.index t (1 : Fin 3) * 16384 + 1 * r.val
    rw [e1]
  · intro k
    show win0_0.index t (2 : Fin 3) * 32 + 1 * k.val = k.val
    rw [e2]; omega
  · intro k
    show win0_1.index t (0 : Fin 3) * 1 + 1 * (0 : Fin 1).val = win0_2.index t (0 : Fin 3) * 1 + 1 * (0 : Fin 1).val
    rw [e3]
  · intro k
    show win0_1.index t (1 : Fin 3) * 32 + 1 * k.val = k.val
    rw [e4]; omega
  · intro k
    show win0_1.index t (2 : Fin 3) * 32 + 1 * o.val = win0_2.index t (2 : Fin 3) * 32 + 1 * o.val
    rw [e5, e6]

/-- An index of the array is in point `t`'s block iff each coordinate is in the block's range on its axis. -/
theorem mem_block (t : Fin cfg0.N) (i : S27x131072x32.Idx) :
    i ∈ ((cfg0.win 2).blk t).view.set ↔ ∀ a : Fin 3, win0_2.index t a * S1x16384x32.size a ≤ (i a).val
      ∧ (i a).val < win0_2.index t a * S1x16384x32.size a + S1x16384x32.size a := by
  show i ∈ ((View.whole main_v7).slice (win0_2.rect t)).set ↔ _
  rw [View.set_slice_whole, Rect.mem_set_unit]
  exact Iff.rfl

/-- Every index of the array is in the block of the point at its offset and its row's block of 16384. -/
theorem covered (i : S27x131072x32.Idx) :
    ∃ t : Fin cfg0.N, (cfg0.win 2).flush t = true ∧ i ∈ ((cfg0.win 2).blk t).view.set := by
  have hi0 : (i 0).val < 27 := (i 0).isLt
  have hi1 : (i 1).val < 131072 := (i 1).isLt
  have hi2 : (i 2).val < 32 := (i 2).isLt
  obtain ⟨t, ht⟩ := every_block ⟨(i 0).val, hi0⟩ ⟨(i 1).val / 16384, by omega⟩
  have q0 : win0_2.index t (0 : Fin 3) = (i 0).val := congrFun ht 0
  have q1 : win0_2.index t (1 : Fin 3) = (i 1).val / 16384 := congrFun ht 1
  have q2 : win0_2.index t (2 : Fin 3) = 0 := congrFun ht 2
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 16384 ≤ (i 1).val ∧ (i 1).val < win0_2.index t (1 : Fin 3) * 16384 + 16384; omega
  | ⟨2, _⟩ => show win0_2.index t (2 : Fin 3) * 32 ≤ (i 2).val ∧ (i 2).val < win0_2.index t (2 : Fin 3) * 32 + 32; omega

/-- THE ARRAY after the region: the per-offset product of the gathered rows and the weights as the region finds them. -/
theorem contrib_array (c : Dev nD) :
    (dats m 0 c).arrAt 2 cfg0.N = Cert.OffsetGemm.contrib (V m c main_v6) (V m c main_arg1) :=
  (dats m 0 c).arrAt_eq_of_cover 2 _ (fun t _ => written_block m c t) covered

end Cert.KernelIdeal.ContribArray

end
-- ==== Proof.KernelResult.lean ====
/-
  The kernel program's result: the shared tail applied to the per-offset product of the gathered rows and the weights.

  Around its one region the kernel's program has the reference's own lines. Before the region it gathers the input's
  rows by `in_map` (negative indices wrapped by the row count); the region finds that array and the weights, and
  leaves the per-offset product in its output array; after the region the product's rows, flattened over
  (offset, pair), are scatter-added into a zero array by `out_map` and the bias row is added. The lines after the
  region read the region's output array and two argument arrays; the output array holds the product, and the
  arguments are as launched, since no line writes them.
-/
import proofs.«180998_j69097433858537_1_alg».proof.Proof.Gen.KernelIdeal.Frame
import proofs.«180998_j69097433858537_1_alg».proof.Proof.OffsetGemm
import proofs.«180998_j69097433858537_1_alg».proof.Proof.ContribArray
import Idealize.ShloMosaic.Lib.StableHlo.Run
import Idealize.ShloMosaic.Lib.Pipeline.Value
import Idealize.ShloMosaic.PureOps.Ideal

noncomputable section

namespace Cert.KernelIdeal.KernelResult

open Cert.KernelIdeal Cert.KernelIdeal.Gen Idealize.ShloMosaic Idealize.ShloMosaic.TcCoe Idealize.SL.Sem Idealize.ShloMosaic.StableHlo
open Idealize.ShloMosaic.Pipeline (Dat)

section Terms
variable {F : FTy → Type} [FloatOps F]

/-- The lines before the region: the input's rows gathered by `in_map`, a negative index wrapped by the row count. -/
def gathered (x0 : (⟨S262144x32, .f32⟩ : BufTy).Contents (Elt F)) (x3 : (⟨S27x131072, .i32⟩ : BufTy).Contents (Elt F)) :
    (⟨S27x131072x32, .f32⟩ : BufTy).Contents (Elt F) :=
  Host.gather gather_S262144x32_S27x131072x1_S27x131072x32_2_0_n_n_0_2_132 x0
    (broadcastInDim S27x131072x1 ![0, 1] bcast_S27x131072_S27x131072x1_0_1
      (select (cmpi .slt x3 (broadcastInDim S27x131072 ![] bcast_S_S27x131072 (constantI S_ 32 0#32)))
        (addi x3 (broadcastInDim S27x131072 ![] bcast_S_S27x131072 (constantI S_ 32 262144#32))) x3))

/-- The lines after the region: the rows of `y`, flattened over (offset, pair), added into a zero array at the rows
    `out_map` names (a negative index wrapped by the row count), and the bias row added to every row. -/
def tail (y : (⟨S27x131072x32, .f32⟩ : BufTy).Contents (Elt F)) (x2 : (⟨S1x32, .f32⟩ : BufTy).Contents (Elt F))
    (x4 : (⟨S27x131072, .i32⟩ : BufTy).Contents (Elt F)) : (⟨S262144x32, .f32⟩ : BufTy).Contents (Elt F) :=
  addf (Host.scatterAdd scatter_S262144x32_S3538944x1_S3538944x32_1_0_0_1
      (broadcastInDim S262144x32 ![] bcast_S_S262144x32 (constant (F := F) S_ .f32 0x00000000#32))
      (broadcastInDim S3538944x1 ![0] bcast_S3538944_S3538944x1_0
        (select (cmpi .slt (shapeCast _ x4 shapeCasts_S27x131072_S3538944) (broadcastInDim S3538944 ![] bcast_S_S3538944 (constantI S_ 32 0#32)))
          (addi (shapeCast _ x4 shapeCasts_S27x131072_S3538944) (broadcastInDim S3538944 ![] bcast_S_S3538944 (constantI S_ 32 262144#32)))
          (shapeCast _ x4 shapeCasts_S27x131072_S3538944)))
      (shapeCast _ y shapeCasts_S27x131072x32_S3538944x32))
    (broadcastInDim S262144x32 ![0, 1] bcast_S1x32_S262144x32_0_1 x2)

theorem tail_congr {y y' : (⟨S27x131072x32, .f32⟩ : BufTy).Contents (Elt F)} {x2 x2' : (⟨S1x32, .f32⟩ : BufTy).Contents (Elt F)}
    {x4 x4' : (⟨S27x131072, .i32⟩ : BufTy).Contents (Elt F)} (hy : y = y') (h2 : x2 = x2') (h4 : x4 = x4') :
    tail y x2 x4 = tail y' x2' x4' := by subst hy h2 h4; rfl

end Terms

/-- The kernel program's result as a function of its five arguments. -/
abbrev resultOf (x0 : (⟨S262144x32, .f32⟩ : BufTy).Contents (Elt Ideal)) (x1 : (⟨S27x32x32, .f32⟩ : BufTy).Contents (Elt Ideal))
    (x2 : (⟨S1x32, .f32⟩ : BufTy).Contents (Elt Ideal)) (x3 x4 : (⟨S27x131072, .i32⟩ : BufTy).Contents (Elt Ideal)) :
    (⟨S262144x32, .f32⟩ : BufTy).Contents (Elt Ideal) :=
  tail (F := Ideal) (Cert.OffsetGemm.contrib (gathered (F := Ideal) x0 x3) x1) x2 x4

variable (m : (ℓ : Loc nD τ sig) → Buf (Elt Ideal) ℓ) (ρ : Dev nD → PrngReg)

/-- The region finds the gathered rows in its first operand's array. -/
theorem entry_gathered (c : Dev nD) :
    V m c main_v6 = gathered (F := Ideal) (m ((c : Thread nD τ).loc main_arg0)) (m ((c : Thread nD τ).loc main_arg3)) := by
  show StableHlo.after hostOps0 (fun b => m (c, b)) (Proc.devRef .tc main_v6) = _
  after_results
  rfl

/-- The region's output array ends holding the per-offset product of the gathered rows and the weights as launched. -/
theorem product_array (c : Dev nD) :
    (dats m 0 c).arrAt 2 cfg0.N
      = Cert.OffsetGemm.contrib (gathered (F := Ideal) (m ((c : Thread nD τ).loc main_arg0)) (m ((c : Thread nD τ).loc main_arg3)))
          (m ((c : Thread nD τ).loc main_arg1)) := by
  rw [Cert.KernelIdeal.ContribArray.contrib_array m c, entry_gathered m c, V_main_arg1 m c]

/-- What the lines after the region leave in the result array. -/
theorem tail_result (c : Dev nD) :
    Pipeline.afterTail₀ cfgs (dats m) 0 (V0 m) [hostOps1] c main_v19
      = resultOf (m ((c : Thread nD τ).loc main_arg0)) (m ((c : Thread nD τ).loc main_arg1)) (m ((c : Thread nD τ).loc main_arg2))
          (m ((c : Thread nD τ).loc main_arg3)) (m ((c : Thread nD τ).loc main_arg4)) := by
  have e7 := (Pipeline.withArrays_arr spec0 launch0.win.arr_inj c (V0 m c) (fun w => (dats m 0 c).arrAt w cfg0.N) 2).trans (product_array m c)
  have e2 := (Pipeline.withArrays_of_ne spec0 c (V0 m c) (fun w => (dats m 0 c).arrAt w cfg0.N) main_arg2
    (by exact (by decide : ∀ w, Pipeline.arrRef spec0 w ≠ main_arg2))).trans (V_main_arg2 m c)
  have e4 := (Pipeline.withArrays_of_ne spec0 c (V0 m c) (fun w => (dats m 0 c).arrAt w cfg0.N) main_arg4
    (by exact (by decide : ∀ w, Pipeline.arrRef spec0 w ≠ main_arg4))).trans (V_main_arg4 m c)
  unfold Pipeline.afterTail₀
  show StableHlo.after hostOps1 _ (Proc.devRef .tc main_v19) = _
  after_results
  exact tail_congr e7 e2 e4

/-- Every weakly fair execution of the kernel's program ends with its result array at `resultOf` of the arguments,
    the arguments unchanged. -/
theorem run : θ_run defs (onTc (τ := τ) (main (F := Ideal))) ⟨m, fun _ => 0, ρ⟩ fun r => ∀ c : Dev nD,
      r.2.mem ((c.tc : Thread nD τ).loc main_v19)
        = resultOf (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v19 (Pipeline.mem_restRefs_of main_v19 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KernelResult

end
-- ==== Proof.RefResult.lean ====
/-
  The reference's result: the shared tail applied to the per-offset product of the gathered rows and the weights.

  The reference gathers the input's rows by `in_map` (negative indices wrapped by the row count), multiplies each
  offset's gathered matrix by that offset's weights with one batched `dot_general` (batch axis the offset, contracted
  axis the 32 input channels), and then scatter-adds the rows of the product into a zero array by `out_map` and adds
  the bias. At the ideal instance the `dot_general`'s entry `(a, r, o)` is the sum over the channels `k` of
  `gathered (a, r, k) · weights (a, k, o)`, which is the per-offset product. The gather before it and everything
  after it are kept as they are printed: the kernel's program has the same lines around its own product.
-/
import proofs.«180998_j69097433858537_1_alg».proof.Proof.Gen.ReferenceIdeal.Read
import proofs.«180998_j69097433858537_1_alg».proof.Proof.OffsetGemm

noncomputable section

namespace Cert.ReferenceIdeal.RefResult

open Cert.ReferenceIdeal Cert.ReferenceIdeal.Gen Cert.ReferenceIdeal.Read Cert.ReferenceIdeal.Value
open Idealize.ShloMosaic Idealize.ShloMosaic.TcCoe Idealize.SL.Sem Idealize.ShloMosaic.StableHlo

variable {F : FTy → Type} [FloatOps F]

/-- The batched product of the gathered rows with the weights IS the per-offset product: entry `(a, r, o)` sums
    `gathered (a, r, k) · weights (a, k, o)` over the channels. -/
theorem product_is_contrib (x0 : (⟨S262144x32, .f32⟩ : BufTy).Contents (Elt Ideal)) (x1 : (⟨S27x32x32, .f32⟩ : BufTy).Contents (Elt Ideal))
    (x3 : (⟨S27x131072, .i32⟩ : BufTy).Contents (Elt Ideal)) :
    val_main_v7 (F := Ideal) x0 x1 x3 = Cert.OffsetGemm.contrib (val_main_v6 (F := Ideal) x0 x3) x1 := by
  funext i
  rw [val_main_v7_apply]
  exact (Cert.OffsetGemm.contrib_apply_of (val_main_v6 (F := Ideal) x0 x3) x1 i (fun k => lidx_main_v7 i k) (fun k => ridx_main_v7 i k)
    (fun _ => rfl) (fun _ => rfl) (fun _ => rfl) (fun _ => rfl) (fun _ => rfl) (fun _ => rfl)).symm

/-- What follows the product in the program: the rows of the product, flattened over (offset, pair), are added into a
    zero array at the rows `out_map` names (negative indices wrapped), and the bias row is added to every row. -/
def tail (y : (⟨S27x131072x32, .f32⟩ : BufTy).Contents (Elt F)) (x2 : (⟨S1x32, .f32⟩ : BufTy).Contents (Elt F))
    (x4 : (⟨S27x131072, .i32⟩ : BufTy).Contents (Elt F)) : (⟨S262144x32, .f32⟩ : BufTy).Contents (Elt F) :=
  addf (Host.scatterAdd scatter_S262144x32_S3538944x1_S3538944x32_1_0_0_1 (val_main_v8 (F := F)) (val_main_v16 (F := F) x4)
    (shapeCast _ y shapeCasts_S27x131072x32_S3538944x32)) (val_main_v18 (F := F) x2)

/-- The program's last stage is the tail of its product stage. -/
theorem last_stage_eq (x0 : (⟨S262144x32, .f32⟩ : BufTy).Contents (Elt F)) (x1 : (⟨S27x32x32, .f32⟩ : BufTy).Contents (Elt F))
    (x2 : (⟨S1x32, .f32⟩ : BufTy).Contents (Elt F)) (x3 x4 : (⟨S27x131072, .i32⟩ : BufTy).Contents (Elt F)) :
    val_main_v19 (F := F) x0 x1 x2 x3 x4 = tail (val_main_v7 (F := F) x0 x1 x3) x2 x4 := rfl

/-- The reference's result as a function of its five arguments. -/
abbrev result (x0 : (⟨S262144x32, .f32⟩ : BufTy).Contents (Elt Ideal)) (x1 : (⟨S27x32x32, .f32⟩ : BufTy).Contents (Elt Ideal))
    (x2 : (⟨S1x32, .f32⟩ : BufTy).Contents (Elt Ideal)) (x3 x4 : (⟨S27x131072, .i32⟩ : BufTy).Contents (Elt Ideal)) :
    (⟨S262144x32, .f32⟩ : BufTy).Contents (Elt Ideal) :=
  tail (F := Ideal) (Cert.OffsetGemm.contrib (val_main_v6 (F := Ideal) x0 x3) x1) x2 x4

/-- Every weakly fair execution of the reference ends with its result array at `result` of the arguments, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rw [val_main_v19_eq, last_stage_eq, product_is_contrib]), (h c).2⟩)
    (Cert.ReferenceIdeal.Value.run (F := Ideal) m ρ)

end Cert.ReferenceIdeal.RefResult

end
-- ==== Proof.lean ====
/-
  A sparse convolution — gather neighbour rows, one 32 × 32 product per kernel offset, scatter-add, bias — against its
  plain reference, over the extended reals.

  Both programs gather the input's rows by `in_map`, form for each of the 27 offsets the product of the gathered
  131072 × 32 matrix with that offset's 32 × 32 weights, scatter-add the product's rows into a zero array by `out_map`
  and add the bias. They differ only in how the product is formed: the reference by one batched contraction over the
  32 input channels, the kernel block by block on a 27 × 8 grid, each point multiplying 16384 gathered rows by its
  offset's weights after narrowing both to bf16 and accumulating from zero. On the extended reals narrowing is the
  identity and a zero accumulator adds nothing, so both form entry `(a, r, o)` as `∑ k, g (a, r, k) · w (a, k, o)`
  with the same 32 terms; the blocks tile the array, so the kernel's array is that function everywhere. The lines
  around the product are the same in both programs and are carried along unopened. No law that fails at an infinity
  is used, so the precondition is never opened.

  The kernel's and its idealization's frames are the generated ones; the reference's frame is its run with the result
  dropped; the idealization rewrote nothing, so there is nothing to preserve.
-/
import proofs.«180998_j69097433858537_1_alg».proof.Defs
import proofs.«180998_j69097433858537_1_alg».proof.Proof.Gen.Kernel
import proofs.«180998_j69097433858537_1_alg».proof.Proof.Gen.Kernel.Skeleton
import proofs.«180998_j69097433858537_1_alg».proof.Proof.Gen.Kernel.Launch
import proofs.«180998_j69097433858537_1_alg».proof.Proof.Gen.Kernel.Points
import proofs.«180998_j69097433858537_1_alg».proof.Proof.Gen.Kernel.Frame
import proofs.«180998_j69097433858537_1_alg».proof.Proof.Gen.KernelIdeal
import proofs.«180998_j69097433858537_1_alg».proof.Proof.Gen.KernelIdeal.Skeleton
import proofs.«180998_j69097433858537_1_alg».proof.Proof.Gen.KernelIdeal.Launch
import proofs.«180998_j69097433858537_1_alg».proof.Proof.Gen.KernelIdeal.Points
import proofs.«180998_j69097433858537_1_alg».proof.Proof.Gen.KernelIdeal.Frame
import proofs.«180998_j69097433858537_1_alg».proof.Proof.Gen.ReferenceIdeal
import proofs.«180998_j69097433858537_1_alg».proof.Proof.Gen.ReferenceIdeal.Run
import proofs.«180998_j69097433858537_1_alg».proof.Proof.Gen.ReferenceIdeal.Read
import proofs.«180998_j69097433858537_1_alg».proof.Proof.Gen.Pre_finite_inputs
import proofs.«180998_j69097433858537_1_alg».proof.Proof.KernelResult
import proofs.«180998_j69097433858537_1_alg».proof.Proof.RefResult
import Idealize.ShloMosaic.Adequacy
import Idealize.ShloMosaic.Init

noncomputable section

namespace Cert.Proof

open Idealize.ShloMosaic Idealize.ShloMosaic.TcCoe Idealize.SL.Sem

/-- The two programs' results are one function of the five arguments: the same gather, the same per-offset product,
    the same scatter-add and bias, the two texts differing only in the names of their shape records. -/
theorem same_result (x0 : (⟨Cert.KernelIdeal.S262144x32, .f32⟩ : BufTy).Contents (Elt Ideal))
    (x1 : (⟨Cert.KernelIdeal.S27x32x32, .f32⟩ : BufTy).Contents (Elt Ideal))
    (x2 : (⟨Cert.KernelIdeal.S1x32, .f32⟩ : BufTy).Contents (Elt Ideal))
    (x3 x4 : (⟨Cert.KernelIdeal.S27x131072, .i32⟩ : BufTy).Contents (Elt Ideal)) :
    Cert.ReferenceIdeal.RefResult.result x0 x1 x2 x3 x4 = Cert.KernelIdeal.KernelResult.resultOf x0 x1 x2 x3 x4 := rfl

theorem frame_kernel : Cert.frame_Kernel := fun m ρ _ => Cert.Kernel.Gen.frame m ρ
theorem frame_kernel_ideal : Cert.frame_KernelIdeal := fun m ρ _ => Cert.KernelIdeal.Gen.frame m ρ
theorem frame_reference_ideal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with their result arrays at the same function of the
    arguments. -/
theorem algebraic : Cert.algebraic_KernelIdeal_ReferenceIdeal := by
  intro m ρ m' ρ' _ hagree
  refine ⟨_, Cert.KernelIdeal.KernelResult.run m ρ, ?_⟩
  refine (θ_run Cert.ReferenceIdeal.defs _ _).mono (fun _ h c => ⟨(h c).1.trans ?_, (h c).2⟩)
    (Cert.ReferenceIdeal.RefResult.run m' ρ')
  obtain ⟨a0, a1, a2, a3, a4⟩ := hagree c
  rw [a0, a1, a2, a3, a4]
  exact same_result _ _ _ _ _

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
